-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S2000000 : Shape := ⟨1, ![2000000]⟩
abbrev S2x1600000 : Shape := ⟨2, ![2, 1600000]⟩
abbrev S1600000 : Shape := ⟨1, ![1600000]⟩
abbrev S512x128 : Shape := ⟨2, ![512, 128]⟩
abbrev S1x128 : Shape := ⟨2, ![1, 128]⟩
abbrev S_ : Shape := ⟨0, ![]⟩
abbrev S1x2000000 : Shape := ⟨2, ![1, 2000000]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  slices_S2x2000000_S1x2000000_1_0 : S2x2000000.Slices ![1, 0] S1x2000000
  shapeCasts_S1x2000000_S2000000 : S1x2000000.ShapeCasts S2000000

variable [Facts]

def fn_part1 {F : FTy → Type} [FloatOps F] (main_arg0 : IVec S2x2000000 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : IVec S1x2000000 32 := (extractStridedSlice S1x2000000 ![1, 0] · slices_S2x2000000_S1x2000000_1_0) main_arg0
  let main_v20 : IVec S2000000 32 := shapeCast S2000000 main_v19 shapeCasts_S1x2000000_S2000000
  let main_c_6 : IVec S_ 32 := constantI S_ 32 0#32
  let main_v21 : IVec S2000000 32 := broadcastInDim S2000000 ![] bcast_S_S2000000 main_c_6
  let main_v22 : IVec S2000000 1 := cmpi .sge main_v20 main_v21
  let main_v23 : IVec S1x2000000 32 := (extractStridedSlice S1x2000000 ![1, 0] · slices_S2x2000000_S1x2000000_1_0) main_arg0
  let main_v24 : IVec S2000000 32 := shapeCast S2000000 main_v23 shapeCasts_S1x2000000_S2000000
  let main_c_7 : IVec S_ 32 := constantI S_ 32 512#32
  let main_v25 : IVec S2000000 32 := broadcastInDim S2000000 ![] bcast_S_S2000000 main_c_7
  let main_v26 : IVec S2000000 1 := cmpi .slt main_v24 main_v25
  let main_v27 : IVec S2000000 1 := andi main_v22 main_v26
  let main_c_8 : IVec S_ 1 := constantI S_ 1 1#1
  let main_v28 : IVec S_ 1 := (fun x v => Host.reduce IntOp.andi x v reducesTo_S2000000_S_d0 h_S_) main_v27 main_c_8
  let main_v29 : IVec S_ 1 := andi main_v18 main_v28
  main_v29

def fn {F : FTy → Type} [FloatOps F] (main_arg0 : IVec S2x2000000 32) (main_arg1 : FVec F S2000000 .f32) (main_arg2 : IVec S2x1600000 32) (main_arg3 : FVec F S1600000 .f32) (main_arg4 : FVec F S512x128 .f32) (main_arg5 : FVec F S1x128 .f32) : IVec S_ 1 :=
  let main_v0 : FVec F S2000000 .f32 := Host.absf main_arg1
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg0 main_v13 main_v16
-- ==== Kernel.lean ====
abbrev S2x2000000 : Shape := ⟨2, ![2, 2000000]⟩
abbrev S2000000 : Shape := ⟨1, ![2000000]⟩
abbrev S2x1600000 : Shape := ⟨2, ![2, 1600000]⟩
abbrev S1600000 : Shape := ⟨1, ![1600000]⟩
abbrev S512x128 : Shape := ⟨2, ![512, 128]⟩
abbrev S1x128 : Shape := ⟨2, ![1, 128]⟩
abbrev S1x2000000 : Shape := ⟨2, ![1, 2000000]⟩
abbrev S1x1600000 : Shape := ⟨2, ![1, 1600000]⟩
abbrev S_ : Shape := ⟨0, ![]⟩
abbrev S2002944 : Shape := ⟨1, ![2002944]⟩
abbrev S2002944x128 : Shape := ⟨2, ![2002944, 128]⟩
abbrev S4096 : Shape := ⟨1, ![4096]⟩
abbrev S4096x128 : Shape := ⟨2, ![4096, 128]⟩
abbrev S4096x512 : Shape := ⟨2, ![4096, 512]⟩
abbrev S4096x1 : Shape := ⟨2, ![4096, 1]⟩
abbrev S100000x128 : Shape := ⟨2, ![100000, 128]⟩
abbrev S2002944x1 : Shape := ⟨2, ![2002944, 1]⟩
abbrev S2000x128 : Shape := ⟨2, ![2000, 128]⟩
abbrev S1600000x1 : Shape := ⟨2, ![1600000, 1]⟩
abbrev S1600000x128 : Shape := ⟨2, ![1600000, 128]⟩

abbrev nBuf : Space → Nat
  | .hbm => 62
  | .vmem => 12
  | .smem => 0
  | _ => 0

abbrev bufTy : (tb : Table) → Fin (tcTables nBuf tb) → BufTy
  | .hbm, ⟨0, _⟩ => ⟨S2x2000000, .i32⟩
  | .hbm, ⟨1, _⟩ => ⟨S2000000, .f32⟩
  | .hbm, ⟨2, _⟩ => ⟨S2x1600000, .i32⟩
  | .hbm, ⟨3, _⟩ => ⟨S1600000, .f32⟩
  | .hbm, ⟨4, _⟩ => ⟨S512x128, .f32⟩
  | .hbm, ⟨5, _⟩ => ⟨S1x128, .f32⟩
  | .hbm, ⟨6, _⟩ => ⟨S1x2000000, .i32⟩
  | .hbm, ⟨7, _⟩ => ⟨S2000000, .i32⟩
  | .hbm, ⟨8, _⟩ => ⟨S1x2000000, .i32⟩
  | .hbm, ⟨9, _⟩ => ⟨S2000000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S_, .i32⟩
  | .hbm, ⟨16, _⟩ => ⟨S2002944, .i32⟩
  | .hbm, ⟨17, _⟩ => ⟨S_, .i32⟩
  | .hbm, ⟨18, _⟩ => ⟨S_, .f32⟩
  | .hbm, ⟨19, _⟩ => ⟨S2002944, .f32⟩
  | .hbm, ⟨20, _⟩ => ⟨S_, .i32⟩
  | .hbm, ⟨21, _⟩ => ⟨S_, .i32⟩
  | .hbm, ⟨22, _⟩ => ⟨S2002944, .i32⟩
  | .hbm, ⟨23, _⟩ => ⟨S512x128, .bf16⟩
  | .hbm, ⟨24, _⟩ => ⟨S2002944x128, .f32⟩
  | .hbm, ⟨25, _⟩ => ⟨S_, .f32⟩
  | .hbm, ⟨26, _⟩ => ⟨S100000x128, .f32⟩
  | .hbm, ⟨27, _⟩ => ⟨S2002944x1, .i32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x1, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .local _ .vmem, ⟨0, _⟩ => ⟨S4096, .i32⟩
  | .local _ .vmem, ⟨1, _⟩ => ⟨S4096, .i32⟩
  | .local _ .vmem, ⟨2, _⟩ => ⟨S4096, .f32⟩
  | .local _ .vmem, ⟨3, _⟩ => ⟨S4096, .f32⟩
  | .local _ .vmem, ⟨4, _⟩ => ⟨S512x128, .bf16⟩
  | .local _ .vmem, ⟨5, _⟩ => ⟨S4096x128, .f32⟩
  | .local _ .vmem, ⟨6, _⟩ => ⟨S4096x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![489], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S2000000_S2002944_029440 : S2000000.Pads (![0] : Fin 1 → Nat) ![2944] ![0] S2002944
  h_S_ : 0 < S_.numel
  bitsLt_bf16_f32 : FTy.bits .bf16 < FTy.bits .f32
  inb_S4096_S4096_0 : ∀ a, (![0] : Fin 1 → Nat) a + S4096.size a ≤ S4096.size a
  h_S4096 : 0 < S4096.numel
  shapeCasts_S4096_S4096 : S4096.ShapeCasts S4096
  iota_S4096x512_d1_w32 : S4096x512.Iotas .tc 32 [1]
  shapeCasts_S4096_S4096x1 : S4096.ShapeCasts S4096x1
  broadcasts_S4096x1_S4096x512 : S4096x1.Broadcasts S4096x512
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  bcast_S_S100000x128 : S_.BroadcastsInDim S100000x128 (![] : Fin 0 → Fin S100000x128.rank)
  bcast_S2002944_S2002944x1_0 : S2002944.BroadcastsInDim S2002944x1 (![0] : Fin 1 → Fin S2002944x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  broadcasts_S1x128_S2000x128 : S1x128.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  dot_S4096x512_S512x128_S4096x128_1_0_0_1_n_n_wf : DotDims.WF S4096x512 S512x128 S4096x128 [1] [0] [0] [1] [] []
  scatter_S100000x128_S2002944x1_S2002944x128_1_0_0_1_wf : ScatterDims.WF S100000x128 S2002944x1 S2002944x128 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S2002944.size a
  hwx0_0 : ∀ i : grid0.Coords, EltTy.bits .i32 = 32 ∨ (Rect.block (s := S2002944) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S2002944.size a
  hwx0_1 : ∀ i : grid0.Coords, EltTy.bits .f32 = 32 ∨ (Rect.block (s := S2002944) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S2002944x128.size a
  hwx0_3 : ∀ i : grid0.Coords, EltTy.bits .f32 = 32 ∨ (Rect.block (s := S2002944x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def scatter_S100000x128_S2002944x1_S2002944x128_1_0_0_1 : ScatterDims S100000x128 S2002944x1 S2002944x128 where
  updateWindowDims := [1]
  insertedWindowDims := [0]
  scatterDimsToOperandDims := [0]
  indexVectorDim := 1
  wf := scatter_S100000x128_S2002944x1_S2002944x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v8) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2000000 : Shape := ⟨2, ![2, 2000000]⟩
abbrev S2000000 : Shape := ⟨1, ![2000000]⟩
abbrev S2x1600000 : Shape := ⟨2, ![2, 1600000]⟩
abbrev S1600000 : Shape := ⟨1, ![1600000]⟩
abbrev S512x128 : Shape := ⟨2, ![512, 128]⟩
abbrev S1x128 : Shape := ⟨2, ![1, 128]⟩
abbrev S1x2000000 : Shape := ⟨2, ![1, 2000000]⟩
abbrev S2000000x1 : Shape := ⟨2, ![2000000, 1]⟩
abbrev S_ : Shape := ⟨0, ![]⟩
abbrev S2000000x128 : Shape := ⟨2, ![2000000, 128]⟩
abbrev S100000x128 : Shape := ⟨2, ![100000, 128]⟩
abbrev S1x1600000 : Shape := ⟨2, ![1, 1600000]⟩
abbrev S1600000x1 : Shape := ⟨2, ![1600000, 1]⟩
abbrev S1600000x128 : Shape := ⟨2, ![1600000, 128]⟩

abbrev nBuf : Space → Nat
  | .hbm => 67
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S2000000, .f32⟩
  | .hbm, ⟨2, _⟩ => ⟨S2x1600000, .i32⟩
  | .hbm, ⟨3, _⟩ => ⟨S1600000, .f32⟩
  | .hbm, ⟨4, _⟩ => ⟨S512x128, .f32⟩
  | .hbm, ⟨5, _⟩ => ⟨S1x128, .f32⟩
  | .hbm, ⟨6, _⟩ => ⟨S1x2000000, .i32⟩
  | .hbm, ⟨7, _⟩ => ⟨S2000000, .i32⟩
  | .hbm, ⟨8, _⟩ => ⟨S1x2000000, .i32⟩
  | .hbm, ⟨9, _⟩ => ⟨S2000000, .i32⟩
  | .hbm, ⟨10, _⟩ => ⟨S2000000x1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x128, .f32⟩
  | .hbm, ⟨20, _⟩ => ⟨S2000000x128, .f32⟩
  | .hbm, ⟨21, _⟩ => ⟨S2000000x128, .f32⟩
  | .hbm, ⟨22, _⟩ => ⟨S_, .f32⟩
  | .hbm, ⟨23, _⟩ => ⟨S100000x128, .f32⟩
  | .hbm, ⟨24, _⟩ => ⟨S2000000x1, .i32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  gather_S512x128_S2000000x1_S2000000x128_1_0_n_n_0_1_1128_wf : GatherDims.WF S512x128 S2000000x1 S2000000x128 [1] [0] [] [0] [] 1 ![1, 128]
  scatter_S100000x128_S2000000x1_S2000000x128_1_0_0_1_wf : ScatterDims.WF S100000x128 S2000000x1 S2000000x128 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S512x128_S2000000x1_S2000000x128_1_0_n_n_0_1_1128 : GatherDims S512x128 S2000000x1 S2000000x128 where
  offsetDims := [1]
  collapsedSliceDims := [0]
  operandBatchingDims := []
  startIndicesBatchingDims := []
  startIndexMap := [0]
  indexVectorDim := 1
  sliceSizes := ![1, 128]
  wf := gather_S512x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Forms.lean ====
/-
  The two programs as compositions of a few array functions.

  Both programs compute, from a sparse feature matrix in coordinate form (row and column index words with one
  value each), a dense weight matrix, a bias row, and a sparse adjacency matrix in the same form:

    1. for every stored feature entry p the row  value p · weight[column p, ·],
    2. the sum of those rows into the node their row word names (an accumulating scatter: a row word that
       names no node contributes nothing),
    3. the bias row added to every node's row and the negative entries replaced by zero,
    4. twice: every edge's row  value e · base[column e, ·]  summed into the node its row word names.

  Steps 3 and 4 are the same array operations in both programs and are named here once each
  (`biasRelu`, `adjStep`). Step 1 and 2 differ: the reference reads the weight row by a gather over the
  2,000,000 entries (`featSumRef`); the kernel extends the entry lists by 2,944 entries of row 0, column 0 and
  value 0, forms every row as the product of an indicator row (1 where the column word equals the position,
  0 elsewhere) with the weight matrix, times the value (`msgs`), and sums the 2,002,944 rows (`featSumKer`).
-/
import proofs.«415666_j57097295233452_1_alg».proof.KernelIdeal
import proofs.«415666_j57097295233452_1_alg».proof.ReferenceIdeal
import Idealize.ShloMosaic.PureOps.Ideal
import Idealize.ShloMosaic.Lib.ValueIdx

noncomputable section

namespace Cert.Forms

open Idealize.ShloMosaic Idealize.ShloMosaic.ValueIdx

/-! ## The operations both programs share, in the reference's spelling -/

section Shared
open Cert.ReferenceIdeal Cert.ReferenceIdeal.Facts₀
variable [Cert.ReferenceIdeal.Facts]

/-- Row 1 of the adjacency index pair: the edges' column words. -/
def adjCols (ai : IVec S2x1600000 32) : IVec S1600000 32 :=
  shapeCast _ (extractStridedSlice S1x1600000 ![1, 0] ai slices_S2x1600000_S1x1600000_1_0) shapeCasts_S1x1600000_S1600000

/-- Row 0 of the adjacency index pair: the edges' row words. -/
def adjRows (ai : IVec S2x1600000 32) : IVec S1600000 32 :=
  shapeCast _ (extractStridedSlice S1x1600000 ![0, 0] ai slices_S2x1600000_S1x1600000_0_0) shapeCasts_S1x1600000_S1600000

/-- One adjacency step: every edge e contributes  value e · b[column e, ·]  (a negative column word counted
    from the end, the word then clamped into the node range by the gather) to the node its row word names. -/
def adjStep (b : FVec Ideal S100000x128 .f32) (ai : IVec S2x1600000 32) (av : FVec Ideal S1600000 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (adjRows ai))
    (mulf (F := Ideal)
      (broadcastInDim S1600000x128 ![0, 1] bcast_S1600000x1_S1600000x128_0_1
        (broadcastInDim S1600000x1 ![0] bcast_S1600000_S1600000x1_0 av))
      (Host.gather gather_S100000x128_S1600000x1_S1600000x128_1_0_n_n_0_1_1128 b
        (broadcastInDim S1600000x1 ![0] bcast_S1600000_S1600000x1_0
          (select
            (cmpi .slt (adjCols ai) (broadcastInDim S1600000 ![] bcast_S_S1600000 (constantI S_ 32 0#32)))
            (addi (adjCols ai) (broadcastInDim S1600000 ![] bcast_S_S1600000 (constantI S_ 32 100000#32)))
            (adjCols ai)))))

/-- The bias row added to every row, then the larger of each entry and zero. -/
def biasRelu (x : FVec Ideal S100000x128 .f32) (b : FVec Ideal S1x128 .f32) : FVec Ideal S100000x128 .f32 :=
  maximumf (F := Ideal)
    (addf (F := Ideal) x (broadcastInDim S100000x128 ![0, 1] bcast_S1x128_S100000x128_0_1 b))
    (broadcastInDim S100000x128 ![] bcast_S_S100000x128 (constant (F := Ideal) S_ .f32 0x00000000#32))

/-- Row 0 of the feature index pair: the entries' row words. -/
def featRows (fi : IVec S2x2000000 32) : IVec S2000000 32 :=
  shapeCast _ (extractStridedSlice S1x2000000 ![0, 0] fi slices_S2x2000000_S1x2000000_0_0) shapeCasts_S1x2000000_S2000000

/-- Row 1 of the feature index pair: the entries' column words. -/
def featCols (fi : IVec S2x2000000 32) : IVec S2000000 32 :=
  shapeCast _ (extractStridedSlice S1x2000000 ![1, 0] fi slices_S2x2000000_S1x2000000_1_0) shapeCasts_S1x2000000_S2000000

/-- The reference's feature sum: entry p contributes  value p · weight[column p, ·]  (the weight row read by a
    gather: a negative column word counted from the end, the word then clamped into the 512 rows) to the node
    its row word names. -/
def featSumRef (fi : IVec S2x2000000 32) (fv : FVec Ideal S2000000 .f32) (w : FVec Ideal S512x128 .f32) :
    FVec Ideal S100000x128 .f32 :=
  Host.scatterAdd (F := Ideal) scatter_S100000x128_S2000000x1_S2000000x128_1_0_0_1
    (broadcastInDim S100000x128 ![] bcast_S_S100000x128 (constant (F := Ideal) S_ .f32 0x00000000#32))
    (broadcastInDim S2000000x1 ![0] bcast_S2000000_S2000000x1_0 (featRows fi))
    (mulf (F := Ideal)
      (broadcastInDim S2000000x128 ![0, 1] bcast_S2000000x1_S2000000x128_0_1
        (broadcastInDim S2000000x1 ![0] bcast_S2000000_S2000000x1_0 fv))
      (Host.gather gather_S512x128_S2000000x1_S2000000x128_1_0_n_n_0_1_1128 w
        (broadcastInDim S2000000x1 ![0] bcast_S2000000_S2000000x1_0
          (select
            (cmpi .slt (featCols fi) (broadcastInDim S2000000 ![] bcast_S_S2000000 (constantI S_ 32 0#32)))
            (addi (featCols fi) (broadcastInDim S2000000 ![] bcast_S_S2000000 (constantI S_ 32 512#32)))
            (featCols fi)))))

end Shared

/-! ## The kernel's own first half -/

section Kernel
open Cert.KernelIdeal Cert.KernelIdeal.Facts₀
variable [Cert.KernelIdeal.Facts]

/-- The products the first kernel writes: row p is the indicator row of the column word of entry p (over the
    512 positions) times the weight matrix, then times the value of entry p. -/
def msgs (cols : IVec S2002944 32) (vals : FVec Ideal S2002944 .f32) (wb : FVec Ideal S512x128 .bf16) :
    FVec Ideal S2002944x128 .f32 :=
  fun i => (∑ k : Fin 512, (if cols (ix1 (i 0)) = BitVec.ofNat 32 k.val then (1 : EReal) else 0) * wb (ix2 k (i 1)))
    * vals (ix1 (i 0))

/-- The entries' row words, extended by 2,944 zero words. -/
def padRows (fi : IVec S2x2000000 32) : IVec S2002944 32 :=
  pad S2002944 ![0] ![2944] ![0]
    (shapeCast _ (extractStridedSlice S1x2000000 ![0, 0] fi slices_S2x2000000_S1x2000000_0_0) shapeCasts_S1x2000000_S2000000)
    (id (constantI S_ 32 0#32)) pads_S2000000_S2002944_029440 h_S_

/-- The entries' column words, extended by 2,944 zero words. -/
def padCols (fi : IVec S2x2000000 32) : IVec S2002944 32 :=
  pad S2002944 ![0] ![2944] ![0]
    (shapeCast _ (extractStridedSlice S1x2000000 ![1, 0] fi slices_S2x2000000_S1x2000000_1_0) shapeCasts_S1x2000000_S2000000)
    (id (constantI S_ 32 0#32)) pads_S2000000_S2002944_029440 h_S_

/-- The entries' values, extended by 2,944 zeros (the integer zero as a float). -/
def padVals (fv : FVec Ideal S2000000 .f32) : FVec Ideal S2002944 .f32 :=
  pad S2002944 ![0] ![2944] ![0] fv (sitofp (F := Ideal) .f32 (constantI S_ 32 0#32)) pads_S2000000_S2002944_029440 h_S_

/-- The weight matrix in the narrower float format (the same numbers). -/
def wNarrow (w : FVec Ideal S512x128 .f32) : FVec Ideal S512x128 .bf16 :=
  truncf (F := Ideal) .bf16 w bitsLt_bf16_f32

/-- The kernel's feature sum: the 2,002,944 product rows summed into the nodes the extended row words name. -/
def featSumKer (fi : IVec S2x2000000 32) (fv : FVec Ideal S2000000 .f32) (w : FVec Ideal S512x128 .f32) :
    FVec Ideal S100000x128 .f32 :=
  Host.scatterAdd (F := Ideal) scatter_S100000x128_S2002944x1_S2002944x128_1_0_0_1
    (broadcastInDim S100000x128 ![] bcast_S_S100000x128 (constant (F := Ideal) S_ .f32 0x00000000#32))
    (broadcastInDim S2002944x1 ![0] bcast_S2002944_S2002944x1_0 (padRows fi))
    (msgs (padCols fi) (padVals fv) (wNarrow w))

end Kernel

end Cert.Forms

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Region0.lean ====
/-
  The first kernel's output array, read off its blocks.

  The body at a grid point holds 4096 column words, 4096 values and the whole 512 × 128 weight matrix. It compares
  every column word with every position 0 … 511, turns each comparison's bit into the number 1 or 0, multiplies the
  resulting 4096 × 512 indicator matrix with the weight matrix into a zero accumulator, and scales row p of the
  product by value p. Read at (p, q) this is  (∑ k, [word p = k] · weight[k, q]) · value p : the shape casts and
  broadcasts only re-address the operands, the narrowing of the format is the identity on extended reals, and the
  contraction of the product is re-indexed by its one coordinate.

  Point t of the 489 reads entries 4096 t … 4096 t + 4095 of the two lists and writes rows 4096 t … 4096 t + 4095 of
  the output, so what it writes back is block t of the one function `msgs` of the three arrays; row p lies in the
  block of point p / 4096, every point writes back, and so the array ends at `msgs`.
-/
import proofs.«415666_j57097295233452_1_alg».proof.Proof.Forms
import proofs.«415666_j57097295233452_1_alg».proof.Proof.Gen.KernelIdeal.Frame
import proofs.«415666_j57097295233452_1_alg».proof.Proof.LibTileSums
import Idealize.ShloMosaic.Lib.Pipeline.Value
import Idealize.ShloMosaic.Lib.ValueLayout
import Idealize.ShloMosaic.PureOps.Ideal.Laws

noncomputable section

namespace Cert.Region0

open Idealize.ShloMosaic Idealize.ShloMosaic.ValueIdx Idealize.ShloMosaic.TcCoe Cert.Forms
open Cert.KernelIdeal Cert.KernelIdeal.Gen

/-! ## Layout operations of the body, read at an index given by coordinates -/

section Layout
variable {α : Type}

/-- A vector of length a viewed as a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the second axis to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The indicator word and the product at an index -/

/-- Two words compared for equality, the bit widened to a word and read as a number: 1 where they agree, 0 elsewhere. -/
theorem oneHot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · rw [if_pos h]
    have e : (IntOp.cmpi .eq a b).setWidth 32 = 1#32 := by
      subst h; simp [IntOp.cmpi]
    rw [e]; simp
  · rw [if_neg h]
    have hb : (a == b) = false := by simp [h]
    have e : (IntOp.cmpi .eq a b).setWidth 32 = 0#32 := by
      show (BitVec.ofBool (a == b)).setWidth 32 = 0#32
      rw [hb]; rfl
    rw [e]; simp

/-- The product's dimension numbers: rows of the left operand against columns of the right, one contracted axis of 512 positions. -/
abbrev dotR := dot_S4096x512_S512x128_S4096x128_1_0_0_1_n_n

theorem lhs_dotR_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs_dotR_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
theorem rhs_dotR_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
theorem rhs_dotR_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The product into a zero accumulator, read at (p, q): row p of the left operand against column q of the right. -/
theorem matmul_dotR_apply (L : FVec Ideal S4096x512 .bf16) (R : FVec Ideal S512x128 .bf16) (p : Fin 4096) (q : Fin 128) :
    matmul dotR none L R (constant (F := Ideal) S4096x128 .f32 0x00000000#32) (ix2 p q)
      = ∑ k : Fin 512, L (ix2 p k) * R (ix2 k q) := by
  simp only [matmul]
  rw [Ideal.matmul_constant_zero_apply, ← Equiv.sum_comp (contrEquiv1 dotR 512 rfl rfl).symm]
  refine Finset.sum_congr rfl fun k _ => ?_
  have hk := contrEquiv1_symm_val dotR 512 rfl rfl k
  have el : dotR.lhsIdx (ix2 p q) ((contrEquiv1 dotR 512 rfl rfl).symm k) = ix2 p k := funext fun a => Fin.ext (by
    match a with
    | ⟨0, _⟩ => exact lhs_dotR_0 _ _
    | ⟨1, _⟩ => exact (lhs_dotR_1 _ _).trans hk)
  have er : dotR.rhsIdx (ix2 p q) ((contrEquiv1 dotR 512 rfl rfl).symm k) = ix2 k q := funext fun a => Fin.ext (by
    match a with
    | ⟨0, _⟩ => exact (rhs_dotR_0 _ _).trans hk
    | ⟨1, _⟩ => exact rhs_dotR_1 _ _)
  rw [el, er]

/-! ## The body's arithmetic at an index of the block -/

/-- Entry (p, q) of what the body stores: the indicator row of column word p against column q of the weights, times value p. -/
theorem pay_apply (x0 : Vec Ideal S4096 .i32) (x1 : Vec Ideal S4096 .f32) (x2 : Vec Ideal S512x128 .bf16)
    (p : Fin 4096) (q : Fin 128) :
    k0_pay1 (F := Ideal) x0 x1 x2 (ix2 p q)
      = (∑ k : Fin 512, (if x0 (ix1 p) = BitVec.ofNat 32 k.val then (1 : EReal) else 0) * x2 (ix2 k q)) * x1 (ix1 p) := by
  unfold k0_pay1
  dsimp only
  refine (mulf_apply _ _ _).trans ?_
  refine congrArg₂ (· * ·) ?_ ?_
  · refine (matmul_dotR_apply _ _ p q).trans ?_
    refine Finset.sum_congr rfl fun k _ => ?_
    refine congrArg₂ (· * ·) ?_ ?_
    · refine Eq.trans ?_ (oneHot_word (x0 (ix1 p)) (BitVec.ofNat 32 k.val))
      show FloatOps.sitofp (F := Ideal) .f32 ((IntOp.cmpi .eq _ _).setWidth 32) = _
      congr 3
      · refine (broadcastTo_a1_ab_apply _ _ p k).trans ?_
        refine (shapeCast_a_a1_apply _ _ p 0).trans ?_
        exact congrFun (shapeCast_self x0 _) (ix1 p)
      · exact iota_single_apply .tc S4096x512 32 1 _ (ix2 p k)
    · exact congrFun (shapeCast_self x2 _) (ix2 k q)
  · refine (broadcastTo_a1_ab_apply _ _ p q).trans ?_
    refine (shapeCast_a_a1_apply _ _ p 0).trans ?_
    exact congrFun (shapeCast_self x1 _) (ix1 p)

/-! ## From the block at a point to the array -/

/-- Entry y of the stored block is entry i of the products, once the block's inputs at y are the arrays' at i. -/
theorem block_value (x0 : Vec Ideal S4096 .i32) (x1 : Vec Ideal S4096 .f32) (x2 : Vec Ideal S512x128 .bf16)
    (cols : IVec S2002944 32) (vals : FVec Ideal S2002944 .f32) (wb : FVec Ideal S512x128 .bf16)
    (y : S4096x128.Idx) (i : S2002944x128.Idx)
    (h0 : x0 (ix1 (y 0)) = cols (ix1 (i 0))) (h1 : x1 (ix1 (y 0)) = vals (ix1 (i 0)))
    (h2 : ∀ k : Fin 512, x2 (ix2 k (y 1)) = wb (ix2 k (i 1))) :
    k0_pay1 (F := Ideal) x0 x1 x2 y = msgs cols vals wb i := by
  obtain ⟨p, q, rfl⟩ : ∃ (p : Fin 4096) (q : Fin 128), y = ix2 p q := ⟨y 0, y 1, eq_ix2 y⟩
  have h0' : x0 (ix1 p) = cols (ix1 (i 0)) := h0
  have h1' : x1 (ix1 p) = vals (ix1 (i 0)) := h1
  have h2' : ∀ k : Fin 512, x2 (ix2 k q) = wb (ix2 k (i 1)) := h2
  refine (pay_apply x0 x1 x2 p q).trans ?_
  show _ = (∑ k : Fin 512, (if cols (ix1 (i 0)) = BitVec.ofNat 32 k.val then (1 : EReal) else 0) * wb (ix2 k (i 1))) * vals (ix1 (i 0))
  rw [h0', h1']
  congr 1
  exact Finset.sum_congr rfl fun k _ => by rw [h2' k]

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The index maps over the grid: point t takes block t of the entry lists and of the output's rows, and the
    whole weight matrix. -/
theorem idx_facts : ∀ t : Fin cfg0.N, win0_0.index t (0 : Fin 1) = t.val
    ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry x of the column words' block at point t is entry 4096 t + x of the list. -/
theorem iblk_cols (c : Dev nD) (t : Fin cfg0.N) (x : S4096.Idx) (k : S2002944.Idx)
    (hk : (k 0).val = 4096 * t.val + (x 0).val) :
    (iblk0 V c 0 t : Vec Ideal S4096 .i32) x = (V c main_v8 : S2002944.Idx → BitVec 32) k := by
  have hi := (idx_facts t).1
  unfold iblk0
  rw [View.read_apply]
  show V c main_v8 _ = V c main_v8 _
  congr 1
  funext a
  apply Fin.ext
  match a with
  | ⟨0, _⟩ => show win0_0.index t 0 * 4096 + 1 * (x 0).val = (k 0).val; rw [hi, hk]; omega

/-- Entry x of the values' block at point t is entry 4096 t + x of the list. -/
theorem iblk_vals (c : Dev nD) (t : Fin cfg0.N) (x : S4096.Idx) (k : S2002944.Idx)
    (hk : (k 0).val = 4096 * t.val + (x 0).val) :
    (iblk0 V c 1 t : Vec Ideal S4096 .f32) x = (V c main_v9 : S2002944.Idx → EReal) k := by
  have hi := (idx_facts t).2.1
  unfold iblk0
  rw [View.read_apply]
  show V c main_v9 _ = V c main_v9 _
  congr 1
  funext a
  apply Fin.ext
  match a with
  | ⟨0, _⟩ => show win0_1.index t 0 * 4096 + 1 * (x 0).val = (k 0).val; rw [hi, hk]; omega

/-- The weights' block at every point is the whole matrix. -/
theorem iblk_w (c : Dev nD) (t : Fin cfg0.N) (x : S512x128.Idx) :
    (iblk0 V c 2 t : Vec Ideal S512x128 .bf16) x = (V c main_v11 : S512x128.Idx → EReal) x := by
  obtain ⟨-, -, e2, e3, -, -⟩ := idx_facts t
  unfold iblk0
  rw [View.read_apply]
  show V c main_v11 _ = V c main_v11 _
  congr 1
  funext a
  apply Fin.ext
  match a with
  | ⟨0, _⟩ => show win0_2.index t 0 * 512 + 1 * (x 0).val = (x 0).val; rw [e2]; omega
  | ⟨1, _⟩ => show win0_2.index t 1 * 128 + 1 * (x 1).val = (x 1).val; rw [e3]; omega

/-- What point t writes back is block t of the products. -/
theorem flushed_eq (c : Dev nD) (t : Fin cfg0.N) :
    (dat0 (F := Ideal) V c).flushed 3 t
      = ((cfg0.win 3).blk t).view.read (Elt Ideal) (msgs (V c main_v8) (V c main_v9) (V c main_v11)) := by
  show (cfg0.win 3).cut (grid0.coords t) ((dat0 (F := Ideal) V c).after 3 t) = _
  rw [after0_3]
  unfold out0_3
  rw [View.canon_unit_zero hz2]
  simp only [View.ld_unit_zero (S := S4096) hz1, View.ld_unit_zero (S := S512x128) hz2]
  obtain ⟨-, -, -, -, e4, e5⟩ := idx_facts t
  funext j
  have hj0 : (j 0).val < 4096 := (j 0).isLt
  have hj1 : (j 1).val < 128 := (j 1).isLt
  rw [View.read_apply]
  have hi0 : ((((cfg0.win 3).blk t).view.emb j) 0).val = 4096 * t.val + (j 0).val := by
    show win0_3.index t 0 * 4096 + 1 * (j 0).val = _
    rw [e4]; omega
  have hi1 : ((((cfg0.win 3).blk t).view.emb j) 1).val = (j 1).val := by
    show win0_3.index t 1 * 128 + 1 * (j 1).val = _
    rw [e5]; omega
  refine block_value (iblk0 V c 0 t) (iblk0 V c 1 t) (iblk0 V c 2 t) (V c main_v8) (V c main_v9) (V c main_v11)
    ((cfg0.win 3).xinj (grid0.coords t) j) (((cfg0.win 3).blk t).view.emb j) ?_ ?_ ?_
  · exact iblk_cols V c t _ _ hi0
  · exact iblk_vals V c t _ _ hi0
  · intro k
    refine (iblk_w V c t _).trans ?_
    exact congrArg (V c main_v11 : S512x128.Idx → EReal) (funext fun a => Fin.ext (by
      match a with
      | ⟨0, _⟩ => rfl
      | ⟨1, _⟩ => exact hi1.symm))

/-- An index of the output array is in point t's block iff each coordinate is in the block's range on its axis. -/
theorem mem_blk (t : Fin cfg0.N) (i : S2002944x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v12).slice (win0_3.rect t)).set ↔ _
  rw [View.set_slice_whole, Rect.mem_set_unit]
  exact Iff.rfl

/-- Every row p of the output is in the block of point p / 4096, which writes back. -/
theorem cover (i : S2002944x128.Idx) :
    ∃ t : Fin cfg0.N, (cfg0.win 3).flush t = true ∧ i ∈ ((cfg0.win 3).blk t).view.set := by
  have hi0 : (i 0).val < 2002944 := (i 0).isLt
  have hi1 : (i 1).val < 128 := (i 1).isLt
  have hN : cfg0.N = 489 := N_0
  let t : Fin cfg0.N := ⟨(i 0).val / 4096, by rw [hN]; omega⟩
  have ht : t.val = (i 0).val / 4096 := rfl
  obtain ⟨-, -, -, -, e4, e5⟩ := idx_facts t
  refine ⟨t, flush0_3 t, ?_⟩
  rw [mem_blk]
  intro a
  match a with
  | ⟨0, _⟩ =>
    show win0_3.index t 0 * 4096 ≤ (i 0).val ∧ (i 0).val < win0_3.index t 0 * 4096 + 4096
    rw [e4, ht]; omega
  | ⟨1, _⟩ =>
    show win0_3.index t 1 * 128 ≤ (i 1).val ∧ (i 1).val < win0_3.index t 1 * 128 + 128
    rw [e5]; omega

/-- The first kernel's output array after its run: the products, row by row. -/
theorem region0_value (c : Dev nD) :
    (dat0 (F := Ideal) V c).arrAt 3 cfg0.N = msgs (V c main_v8) (V c main_v9) (V c main_v11) :=
  (dat0 (F := Ideal) V c).arrAt_eq_of_cover 3 (msgs (V c main_v8) (V c main_v9) (V c main_v11))
    (fun t _ => flushed_eq V c t) cover

end Cert.Region0

end
-- ==== Proof.Region1.lean ====
/-
  The second kernel's output array, read off its blocks.

  The body at a grid point holds 2000 rows of the feature sum and the one bias row. It adds the bias row to every
  row and keeps the larger of each entry and zero: at (p, q) the value  max (block[p, q] + bias[0, q], 0).
  Point t of the 50 reads rows 2000 t … 2000 t + 1999 and writes the same rows of the output, so what it writes
  back is block t of one function of the two arrays; row r lies in the block of point r / 2000, every point writes
  back, and the array ends at that function, which is `biasRelu` read at an index.
-/
import proofs.«415666_j57097295233452_1_alg».proof.Proof.Forms
import proofs.«415666_j57097295233452_1_alg».proof.Proof.Gen.KernelIdeal.Frame
import proofs.«415666_j57097295233452_1_alg».proof.Proof.Gen.ReferenceIdeal
import Idealize.ShloMosaic.Lib.Pipeline.Value
import Idealize.ShloMosaic.Lib.ValueLayout
import Idealize.ShloMosaic.Lib.IdealHost

noncomputable section

namespace Cert.Region1

open Idealize.ShloMosaic Idealize.ShloMosaic.ValueIdx Idealize.ShloMosaic.TcCoe Cert.Forms
open Cert.KernelIdeal Cert.KernelIdeal.Gen

/-- The two zero offsets of a whole-buffer access, as the constant function. -/
theorem hz : (![0, 0] : Fin 2 → Nat) = fun _ => 0 := funext fun a => by fin_cases a <;> rfl

/-- The body's stored value at row p, column q of its block: the block's entry plus the bias row's entry of
    the same column, or zero when that sum is negative. -/
theorem pay_apply (x0 : Vec Ideal S2000x128 .f32) (x1 : Vec Ideal S1x128 .f32) (p : Fin 2000) (q : Fin 128) :
    k1_pay1 x0 x1 (ix2 p q) = max (x0 (ix2 p q) + x1 (ix2 0 q)) (Ideal.ofBits .f32 0x00000000#32) := by
  unfold k1_pay1
  rw [maximumf_apply, addf_apply, broadcast_apply, shapeCast_self,
    broadcastTo_apply x1 broadcasts_S1x128_S2000x128 (ix2 p q) (ix2 0 q) (fun a => by
      match a with
      | ⟨0, _⟩ => rfl
      | ⟨1, _⟩ => rfl)]
  rfl

/-- The bias row added to every row and the negative entries replaced by zero, read at row r, column q. -/
theorem biasRelu_apply (X : FVec Ideal S100000x128 .f32) (B : FVec Ideal S1x128 .f32) (r : Fin 100000) (q : Fin 128) :
    biasRelu X B (ix2 r q) = max (X (ix2 r q) + B (ix2 0 q)) (Ideal.ofBits .f32 0x00000000#32) := by
  unfold biasRelu
  rw [maximumf_apply, addf_apply, broadcastInDim_scalar_apply, constant_apply,
    broadcastInDim_apply _ _ B (ix2 r q) (ix2 0 q) (fun a => by
      match a with
      | ⟨0, _⟩ => rfl
      | ⟨1, _⟩ => rfl)]

/-- One stored entry against one entry of the whole result: when the block's entry is the array's entry at
    (r, q) and the bias rows agree on column q, the body's value at (p, q) is the result's at (r, q). -/
theorem point_eq (x0 : Vec Ideal S2000x128 .f32) (x1 : Vec Ideal S1x128 .f32)
    (X : FVec Ideal S100000x128 .f32) (B : FVec Ideal S1x128 .f32)
    (p : Fin 2000) (q : Fin 128) (r : Fin 100000)
    (h0 : x0 (ix2 p q) = X (ix2 r q)) (h1 : x1 (ix2 0 q) = B (ix2 0 q)) :
    k1_pay1 x0 x1 (ix2 p q) = biasRelu X B (ix2 r q) := by
  rw [pay_apply, biasRelu_apply, h0, h1]

/-- The printed index maps over the 50 grid points: the input block and the output block of point t are both
    block t of the rows and the only block of the columns; the bias row's block is always the whole row. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t (rows 2000·t to 2000·t + 1999) of the whole result. -/
theorem flushed_eq (c : Dev nD) (t : Fin cfg1.N) :
    (dat1 (F := Ideal) V c).flushed 2 t
      = ((cfg1.win 2).blk t).view.read (Elt Ideal) (biasRelu (V c main_v15) (V c main_arg5)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e00, e01, e10, e11, e20, e21⟩ := idx_facts t
  funext j
  obtain ⟨p, q, rfl⟩ : ∃ (p : Fin 2000) (q : Fin 128), j = ix2 p q := ⟨j 0, j 1, eq_ix2 j⟩
  have ht : t.val < 50 := lt_of_lt_of_eq t.isLt N_1
  -- the row of the array that row p of block t is
  have hr : t.val * 2000 + p.val < 100000 := by have := p.isLt; omega
  have hemb : ((cfg1.win 2).blk t).view.emb (ix2 p q) = ix2 (⟨t.val * 2000 + p.val, hr⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  show k1_pay1 (iblk1 V c 0 t) (iblk1 V c 1 t) (ix2 p q)
    = biasRelu (V c main_v15) (V c main_arg5) (((cfg1.win 2).blk t).view.emb (ix2 p q))
  rw [hemb]
  refine point_eq _ _ _ _ p q _ ?_ ?_
  · show V c main_v15 (((cfg1.win 0).blk t).view.emb (ix2 p q)) = V c main_v15 _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * q.val = q.val; omega
  · show V c main_arg5 (((cfg1.win 1).blk t).view.emb (ix2 0 q)) = V c main_arg5 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the array is in point t's block exactly when each coordinate lies in the block's range on
    its axis. -/
theorem mem_blk (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v16).slice (win1_2.rect t)).set ↔ _
  rw [View.set_slice_whole, Rect.mem_set_unit]
  exact Iff.rfl

/-- The 50 blocks of 2000 rows tile the 100,000 rows: row r is in the block of point r / 2000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 2000 < cfg1.N := lt_of_lt_of_eq (by omega : (i 0).val / 2000 < 50) N_1.symm
  obtain ⟨-, -, -, -, e20, e21⟩ := idx_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    rw [e20]; show (i 0).val / 2000 * 2000 ≤ (i 0).val ∧ (i 0).val < (i 0).val / 2000 * 2000 + 2000
    omega
  | ⟨1, _⟩ =>
    show win1_2.index ⟨(i 0).val / 2000, hlt⟩ (1 : Fin 2) * 128 ≤ (i 1).val
      ∧ (i 1).val < win1_2.index ⟨(i 0).val / 2000, hlt⟩ (1 : Fin 2) * 128 + 128
    rw [e21]; omega

/-- The output array after the second kernel: the bias row added to every row of its input, negative
    entries replaced by zero. Every point writes its block of that array, and the blocks tile it. -/
theorem region1_value (c : Dev nD) :
    (dat1 (F := Ideal) V c).arrAt 2 cfg1.N = biasRelu (V c main_v15) (V c main_arg5) :=
  (dat1 (F := Ideal) V c).arrAt_eq_of_cover 2 (biasRelu (V c main_v15) (V c main_arg5))
    (fun t _ => flushed_eq V c t) cover

end Cert.Region1

end
-- ==== Proof.KHost.lean ====
/-
  The kernel program's result, named.

  The program runs a stretch of host operations, the first kernel, a second stretch, the second kernel and a last
  stretch; the contents of every buffer at each boundary are a fold from the launch memory. Read at the buffers that
  matter, that fold says: the first kernel is entered with the entries' column words, values and row words each
  extended by 2,944 zeros and the weight matrix in the narrower format; between the kernels the product rows are
  summed into the nodes (the kernel's feature sum); the second kernel is entered with that sum and the bias row and
  leaves the bias added and the negative entries replaced by zero; the last stretch is two adjacency steps over it.
  The two kernels' own values are taken from the region lemmas; everything else here is reading the fold.
-/
import proofs.«415666_j57097295233452_1_alg».proof.Proof.Forms
import proofs.«415666_j57097295233452_1_alg».proof.Proof.Region0
import proofs.«415666_j57097295233452_1_alg».proof.Proof.Region1
import proofs.«415666_j57097295233452_1_alg».proof.Proof.Gen.KernelIdeal.Frame
import Idealize.ShloMosaic.Lib.StableHlo.Run

set_option maxRecDepth 16384

noncomputable section

namespace Cert.KHost

open Idealize.ShloMosaic Idealize.ShloMosaic.TcCoe Idealize.SL.Sem Idealize.ShloMosaic.StableHlo
open Cert.KernelIdeal Cert.KernelIdeal.Gen Cert.Forms

variable (m : (ℓ : Loc nD τ sig) → Buf (Elt Ideal) ℓ) (ρ : Dev nD → PrngReg)

/-! ## At the first kernel's entry -/

/-- The column words, extended. -/
theorem W7_v8 (c : Dev nD) : W7 m ρ c (Proc.devRef .tc main_v8) = padCols (m ((c : Thread nD τ).loc main_arg0)) := by
  after_results
  rfl

/-- The values, extended. -/
theorem W7_v9 (c : Dev nD) : W7 m ρ c (Proc.devRef .tc main_v9) = padVals (m ((c : Thread nD τ).loc main_arg1)) := by
  after_results
  rfl

/-- The row words, extended. -/
theorem W7_v10 (c : Dev nD) : W7 m ρ c (Proc.devRef .tc main_v10) = padRows (m ((c : Thread nD τ).loc main_arg0)) := by
  after_results
  rfl

/-- The weight matrix, narrowed. -/
theorem W7_v11 (c : Dev nD) : W7 m ρ c (Proc.devRef .tc main_v11) = wNarrow (m ((c : Thread nD τ).loc main_arg4)) := by
  after_results
  rfl

/-- The adjacency's column words, untouched since the first stretch. -/
theorem W7_v7 (c : Dev nD) : W7 m ρ c (Proc.devRef .tc main_v7) = adjCols (m ((c : Thread nD τ).loc main_arg2)) := by
  after_results
  rfl

/-- The adjacency's row words. -/
theorem W7_v5 (c : Dev nD) : W7 m ρ c (Proc.devRef .tc main_v5) = adjRows (m ((c : Thread nD τ).loc main_arg2)) := by
  after_results
  rfl

theorem W7_arg3 (c : Dev nD) : W7 m ρ c (Proc.devRef .tc main_arg3) = m ((c : Thread nD τ).loc main_arg3) := by
  after_results

theorem W7_arg5 (c : Dev nD) : W7 m ρ c (Proc.devRef .tc main_arg5) = m ((c : Thread nD τ).loc main_arg5) := by
  after_results

/-! ## Between the kernels -/

/-- The first kernel's output array holds the product rows of the extended entries. -/
theorem W8_v12 (c : Dev nD) : W8 m ρ c (Proc.devRef .tc main_v12)
    = msgs (padCols (m ((c : Thread nD τ).loc main_arg0))) (padVals (m ((c : Thread nD τ).loc main_arg1)))
        (wNarrow (m ((c : Thread nD τ).loc main_arg4))) := by
  rw [show W8 m ρ c (Proc.devRef .tc main_v12) = (dat0 (V7 m ρ) c).arrAt 3 cfg0.N from W8_arr m ρ c 3,
    Cert.Region0.region0_value]
  show msgs (W7 m ρ c (Proc.devRef .tc main_v8)) (W7 m ρ c (Proc.devRef .tc main_v9)) (W7 m ρ c (Proc.devRef .tc main_v11)) = _
  rw [W7_v8, W7_v9, W7_v11]

/-- The second kernel is entered with the kernel's feature sum. -/
theorem W9_v15 (c : Dev nD) : W9 m ρ c (Proc.devRef .tc main_v15)
    = featSumKer (m ((c : Thread nD τ).loc main_arg0)) (m ((c : Thread nD τ).loc main_arg1)) (m ((c : Thread nD τ).loc main_arg4)) := by
  have h10 : W8 m ρ c (Proc.devRef .tc main_v10) = padRows (m ((c : Thread nD τ).loc main_arg0)) :=
    (W8_of_ne m ρ c main_v10 (by decide)).trans (W7_v10 m ρ c)
  show after hostOps1 (W8 m ρ c) (Proc.devRef .tc main_v15) = _
  after_results
  rw [W8_v12, h10]
  rfl

theorem W9_arg5 (c : Dev nD) : W9 m ρ c (Proc.devRef .tc main_arg5) = m ((c : Thread nD τ).loc main_arg5) := by
  show after hostOps1 (W8 m ρ c) (Proc.devRef .tc main_arg5) = _
  after_results
  exact (W8_of_ne m ρ c main_arg5 (by decide)).trans (W7_arg5 m ρ c)

theorem W9_v7 (c : Dev nD) : W9 m ρ c (Proc.devRef .tc main_v7) = adjCols (m ((c : Thread nD τ).loc main_arg2)) := by
  show after hostOps1 (W8 m ρ c) (Proc.devRef .tc main_v7) = _
  after_results
  exact (W8_of_ne m ρ c main_v7 (by decide)).trans (W7_v7 m ρ c)

theorem W9_v5 (c : Dev nD) : W9 m ρ c (Proc.devRef .tc main_v5) = adjRows (m ((c : Thread nD τ).loc main_arg2)) := by
  show after hostOps1 (W8 m ρ c) (Proc.devRef .tc main_v5) = _
  after_results
  exact (W8_of_ne m ρ c main_v5 (by decide)).trans (W7_v5 m ρ c)

theorem W9_arg3 (c : Dev nD) : W9 m ρ c (Proc.devRef .tc main_arg3) = m ((c : Thread nD τ).loc main_arg3) := by
  show after hostOps1 (W8 m ρ c) (Proc.devRef .tc main_arg3) = _
  after_results
  exact (W8_of_ne m ρ c main_arg3 (by decide)).trans (W7_arg3 m ρ c)

/-! ## After the second kernel -/

/-- The second kernel's output: the bias added to the feature sum, negative entries replaced by zero. -/
theorem W10_v16 (c : Dev nD) : W10 m ρ c (Proc.devRef .tc main_v16)
    = biasRelu (featSumKer (m ((c : Thread nD τ).loc main_arg0)) (m ((c : Thread nD τ).loc main_arg1)) (m ((c : Thread nD τ).loc main_arg4)))
        (m ((c : Thread nD τ).loc main_arg5)) := by
  rw [show W10 m ρ c (Proc.devRef .tc main_v16) = (dat1 (V9 m ρ) c).arrAt 2 cfg1.N from W10_arr m ρ c 2,
    Cert.Region1.region1_value]
  show biasRelu (W9 m ρ c (Proc.devRef .tc main_v15)) (W9 m ρ c (Proc.devRef .tc main_arg5)) = _
  rw [W9_v15, W9_arg5]

set_option maxHeartbeats 4000000 in
/-- The whole program's result: two adjacency steps over that. -/
theorem result_eq (c : Dev nD) : W11 m ρ c (Proc.devRef .tc main_v42)
    = adjStep
        (adjStep
          (biasRelu
            (featSumKer (m ((c : Thread nD τ).loc main_arg0)) (m ((c : Thread nD τ).loc main_arg1)) (m ((c : Thread nD τ).loc main_arg4)))
            (m ((c : Thread nD τ).loc main_arg5)))
          (m ((c : Thread nD τ).loc main_arg2)) (m ((c : Thread nD τ).loc main_arg3)))
        (m ((c : Thread nD τ).loc main_arg2)) (m ((c : Thread nD τ).loc main_arg3)) := by
  have h7 : W10 m ρ c (Proc.devRef .tc main_v7) = adjCols (m ((c : Thread nD τ).loc main_arg2)) :=
    (W10_of_ne m ρ c main_v7 (by decide)).trans (W9_v7 m ρ c)
  have h5 : W10 m ρ c (Proc.devRef .tc main_v5) = adjRows (m ((c : Thread nD τ).loc main_arg2)) :=
    (W10_of_ne m ρ c main_v5 (by decide)).trans (W9_v5 m ρ c)
  have h3 : W10 m ρ c (Proc.devRef .tc main_arg3) = m ((c : Thread nD τ).loc main_arg3) :=
    (W10_of_ne m ρ c main_arg3 (by decide)).trans (W9_arg3 m ρ c)
  show after hostOps2 (W10 m ρ c) (Proc.devRef .tc main_v42) = _
  after_results_simp
  rw [W10_v16, h7, h5, h3]
  rfl

end Cert.KHost

end
-- ==== Proof.RefSide.lean ====
/-
  The reference's result, named.

  The reference's run ends with its result array at the composition of its host operations on the argument arrays.
  Read from the inside out that composition is: the feature sum (every stored feature entry's value times the weight
  row its column word names, summed into the node its row word names), the bias row added and negative entries
  replaced by zero, and two adjacency steps. This is the definition of those four functions, nothing more.
-/
import proofs.«415666_j57097295233452_1_alg».proof.Proof.Forms
import proofs.«415666_j57097295233452_1_alg».proof.Proof.Gen.ReferenceIdeal.Run

set_option maxRecDepth 16384

noncomputable section

namespace Cert.RefSide

open Idealize.ShloMosaic Idealize.ShloMosaic.TcCoe Idealize.SL.Sem Cert.Forms
open Cert.ReferenceIdeal Cert.ReferenceIdeal.Gen

/-- The reference's result is two adjacency steps over the bias-and-positive-part of its feature sum. -/
theorem result_eq (m : (ℓ : Loc nD τ sig) → Buf (Elt Ideal) ℓ) (c : Dev nD) :
    Cert.ReferenceIdeal.Value.res_main_v49 (F := Ideal) m c
      = adjStep
          (adjStep
            (biasRelu
              (featSumRef (m ((c.tc : Thread nD τ).loc main_arg0)) (m ((c.tc : Thread nD τ).loc main_arg1))
                (m ((c.tc : Thread nD τ).loc main_arg4)))
              (m ((c.tc : Thread nD τ).loc main_arg5)))
            (m ((c.tc : Thread nD τ).loc main_arg2)) (m ((c.tc : Thread nD τ).loc main_arg3)))
          (m ((c.tc : Thread nD τ).loc main_arg2)) (m ((c.tc : Thread nD τ).loc main_arg3)) := by
  unfold Cert.ReferenceIdeal.Value.res_main_v49 adjStep biasRelu featSumRef adjRows adjCols featRows featCols
  rfl

end Cert.RefSide

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«415666_j57097295233452_1_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.LibPadSum.lean ====
/-
  A finite sum whose tail vanishes.

  If the terms of a sum over the first N naturals vanish from position n on, the sum is the sum of the first n terms.
  Stated in any commutative additive monoid, over `Fin`-indexed terms; only regrouping and `x + 0 = x` are used.
-/
import Mathlib.Algebra.BigOperators.Fin
import Mathlib.Algebra.BigOperators.Group.Finset.Basic

namespace Cert.LibPadSum

open scoped BigOperators

/-- The sum over `Fin N` of terms that vanish at every position `≥ n` is the sum of the first `n` terms. -/
theorem sum_of_tail_zero {M : Type*} [AddCommMonoid M] {n N : ℕ} (h : n ≤ N) (f : Fin N → M)
    (hz : ∀ p : Fin N, n ≤ p.val → f p = 0) :
    ∑ p : Fin N, f p = ∑ p : Fin n, f (Fin.castLE h p) := by
  -- split the range at n: the first n positions, then the k = N - n positions behind them
  obtain ⟨k, rfl⟩ := Nat.exists_eq_add_of_le h
  rw [Fin.sum_univ_add]
  -- every term of the second part sits at a position n + i, where f vanishes
  have htail : ∑ i : Fin k, f (Fin.natAdd n i) = 0 :=
    Finset.sum_eq_zero fun i _ => hz (Fin.natAdd n i) (show n ≤ n + i.val from Nat.le_add_right n i.val)
  rw [htail, add_zero]
  -- the two embeddings of the first n positions agree: each keeps the position
  exact Finset.sum_congr rfl fun p _ => congrArg f (Fin.ext rfl)

end Cert.LibPadSum
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.FeatRef.lean ====
/-
  The reference's feature sum, read at one element.

  The reference's accumulating scatter leaves at (r, c) the zero array's element plus, over the 2,000,000 entries
  whose row word reads r, value p times column c of the weight row it gathers for entry p. When the column word,
  read signed, lies in [0, 512) the wrap of negative words leaves it alone and the gather's clamp does nothing, so
  the gathered row is the one the word names: `rowAt w word c`.
-/
import proofs.«415666_j57097295233452_1_alg».proof.Proof.Forms
import proofs.«415666_j57097295233452_1_alg».proof.Proof.Gen.ReferenceIdeal
import proofs.«415666_j57097295233452_1_alg».proof.Proof.LibIndexMaps
import proofs.«415666_j57097295233452_1_alg».proof.Proof.LibLayoutReads
import proofs.«415666_j57097295233452_1_alg».proof.Proof.LibWordArith
import proofs.«415666_j57097295233452_1_alg».proof.Proof.LibScatterHost
import Idealize.ShloMosaic.Lib.Pipeline.Value
import Idealize.ShloMosaic.Lib.IdealHost

noncomputable section

namespace Cert.FeatRef

open Idealize.ShloMosaic Idealize.ShloMosaic.ValueIdx Cert.Forms
open Cert.ReferenceIdeal

/-- Entry (k, c) of a 512-row matrix for the row k a 32-bit word names; zero when the word names no row. -/
def rowAt {φ : FTy} (w : FVec Ideal S512x128 φ) (col : BitVec 32) (c : Fin 128) : EReal :=
  if h : col.toNat < 512 then w (ix2 ⟨col.toNat, h⟩ c) else 0

open Cert.Gcn.IndexMaps Cert.Gcn.LayoutReads Cert.Gcn.WordArith

/-! ## Words -/

/-- A word whose signed reading lies in [0, 512) has its unsigned reading there too. -/
theorem toNat_lt_of_toInt {a : BitVec 32} (h0 : 0 ≤ a.toInt) (h1 : a.toInt < 512) : a.toNat < 512 := by
  have hc := BitVec.toInt_eq_toNat_cond a
  have hlt := a.isLt
  split at hc <;> omega

/-! ## The index pair's rows at one entry -/

/-- Row 0 of the index pair, flattened, read at position p: the pair's entry (0, p). -/
theorem featRows_apply (fi : IVec S2x2000000 32) (p : Fin 2000000) :
    featRows fi (ix1 p) = fi (ix2 (0 : Fin 2) p) := by
  unfold featRows
  rw [shapeCast_ab_n_apply _ _ p (0 : Fin 1) p (by show p.val = 0 * 2000000 + p.val; omega),
    extractStridedSlice_apply ![0, 0] fi _ (ix2 (0 : Fin 1) p) (ix2 (0 : Fin 2) p) (fun a => by
      match a with
      | ⟨0, _⟩ => rfl
      | ⟨1, _⟩ => show p.val = 0 + p.val; omega)]

/-- Row 1 of the index pair, flattened, read at position p: the pair's entry (1, p). -/
theorem featCols_apply (fi : IVec S2x2000000 32) (p : Fin 2000000) :
    featCols fi (ix1 p) = fi (ix2 (1 : Fin 2) p) := by
  unfold featCols
  rw [shapeCast_ab_n_apply _ _ p (0 : Fin 1) p (by show p.val = 0 * 2000000 + p.val; omega),
    extractStridedSlice_apply ![1, 0] fi _ (ix2 (0 : Fin 1) p) (ix2 (1 : Fin 2) p) (fun a => by
      match a with
      | ⟨0, _⟩ => rfl
      | ⟨1, _⟩ => show p.val = 0 + p.val; omega)]

/-- The column of row words, read at (p, 0): the pair's entry (0, p). -/
theorem rowsCol_apply (fi : IVec S2x2000000 32) (p : Fin 2000000) :
    (broadcastInDim S2000000x1 ![0] Facts₀.bcast_S2000000_S2000000x1_0 (featRows fi)) (ix2 p (0 : Fin 1))
      = fi (ix2 (0 : Fin 2) p) := by
  rw [broadcastInDim_a_a1_apply, featRows_apply]

/-! ## The gathered row and the update row at one entry -/

/-- The start index of entry p: the column word, unchanged by the wrap-around of negative words because it
    is not negative. -/
theorem startCol_apply (fi : IVec S2x2000000 32) (p : Fin 2000000)
    (hp : (fi (ix2 (1 : Fin 2) p)).toNat < 512) :
    (broadcastInDim S2000000x1 ![0] Facts₀.bcast_S2000000_S2000000x1_0
      (select
        (cmpi .slt (featCols fi) (broadcastInDim S2000000 ![] Facts₀.bcast_S_S2000000 (constantI S_ 32 0#32)))
        (addi (featCols fi) (broadcastInDim S2000000 ![] Facts₀.bcast_S_S2000000 (constantI S_ 32 512#32)))
        (featCols fi))) (ix2 p (0 : Fin 1))
      = fi (ix2 (1 : Fin 2) p) := by
  rw [broadcastInDim_a_a1_apply, select_apply]
  show Scalar.select
      (IntOp.cmpi .slt (featCols fi (ix1 p))
        ((broadcastInDim S2000000 ![] Facts₀.bcast_S_S2000000 (constantI S_ 32 0#32)) (ix1 p)))
      (IntOp.addi (featCols fi (ix1 p))
        ((broadcastInDim S2000000 ![] Facts₀.bcast_S_S2000000 (constantI S_ 32 512#32)) (ix1 p)))
      (featCols fi (ix1 p)) = _
  rw [broadcastInDim_scalar_apply, broadcastInDim_scalar_apply, featCols_apply]
  exact select_slt_zero_small _ (by omega)

/-- The update row of entry p at column c: the entry's value times entry c of the weight row its column
    word names (the gather's clamp does nothing for a word below 512). -/
theorem upd_apply (fi : IVec S2x2000000 32) (fv : FVec Ideal S2000000 .f32) (w : FVec Ideal S512x128 .f32)
    (p : Fin 2000000) (c : Fin 128) (hp : (fi (ix2 (1 : Fin 2) p)).toNat < 512) :
    (mulf (F := Ideal)
      (broadcastInDim S2000000x128 ![0, 1] Facts₀.bcast_S2000000x1_S2000000x128_0_1
        (broadcastInDim S2000000x1 ![0] Facts₀.bcast_S2000000_S2000000x1_0 fv))
      (Host.gather gather_S512x128_S2000000x1_S2000000x128_1_0_n_n_0_1_1128 w
        (broadcastInDim S2000000x1 ![0] Facts₀.bcast_S2000000_S2000000x1_0
          (select
            (cmpi .slt (featCols fi) (broadcastInDim S2000000 ![] Facts₀.bcast_S_S2000000 (constantI S_ 32 0#32)))
            (addi (featCols fi) (broadcastInDim S2000000 ![] Facts₀.bcast_S_S2000000 (constantI S_ 32 512#32)))
            (featCols fi))))) (ix2 p c)
      = fv (ix1 p) * rowAt w (fi (ix2 (1 : Fin 2) p)) c := by
  rw [mulf_apply,
    broadcastInDim_apply ![0, 1] _ _ (ix2 p c) (ix2 p (0 : Fin 1)) (fun a => by
      match a with
      | ⟨0, _⟩ => rfl
      | ⟨1, _⟩ => rfl),
    broadcastInDim_a_a1_apply,
    gather2_ix_apply _ rfl rfl rfl rfl rfl w _ p c (fi (ix2 (1 : Fin 2) p)).toNat hp (by
      rw [startCol_apply fi p hp]; exact toInt_of_small (by omega))]
  unfold rowAt
  rw [dif_pos hp]

/-! ## The scatter's dimension numbers -/

theorem sd_uw : (scatter_S100000x128_S2000000x1_S2000000x128_1_0_0_1).updateWindowDims = [1] := rfl
theorem sd_iw : (scatter_S100000x128_S2000000x1_S2000000x128_1_0_0_1).insertedWindowDims = [0] := rfl
theorem sd_sd : (scatter_S100000x128_S2000000x1_S2000000x128_1_0_0_1).scatterDimsToOperandDims = [0] := rfl
theorem sd_iv : (scatter_S100000x128_S2000000x1_S2000000x128_1_0_0_1).indexVectorDim = 1 := rfl

theorem featSumRef_apply (fi : IVec S2x2000000 32) (fv : FVec Ideal S2000000 .f32) (w : FVec Ideal S512x128 .f32)
    (hcols : ∀ p : Fin 2000000, 0 ≤ (fi (ix2 (1 : Fin 2) p)).toInt ∧ (fi (ix2 (1 : Fin 2) p)).toInt < 512)
    (r : Fin 100000) (c : Fin 128) :
    featSumRef fi fv w (ix2 r c)
      = (broadcastInDim S100000x128 ![] Facts₀.bcast_S_S100000x128 (constant (F := Ideal) S_ .f32 0x00000000#32) :
            FVec Ideal S100000x128 .f32) (ix2 r c)
        + ∑ p : Fin 2000000, if (fi (ix2 (0 : Fin 2) p)).toInt = ((r.val : ℕ) : Int)
            then fv (ix1 p) * rowAt w (fi (ix2 (1 : Fin 2) p)) c else 0 := by
  unfold featSumRef
  rw [Cert.LibScatterHost.scatterAdd2_apply _ sd_uw sd_iw sd_sd sd_iv]
  refine congrArg (_ + ·) (Finset.sum_congr rfl (fun p _ => ?_))
  have hp := toNat_lt_of_toInt (hcols p).1 (hcols p).2
  rw [rowsCol_apply, upd_apply fi fv w p c hp]

end Cert.FeatRef

end
-- ==== Proof.FeatPads.lean ====
/-
  The extended entry lists, read at one position.

  The kernel extends the row words, the column words and the values from 2,000,000 to 2,002,944 positions. Below
  2,000,000 the extended lists hold the originals (the row words are row 0 and the column words row 1 of the index
  pair, flattened); from 2,000,000 on the values hold the fill, the integer zero as a float, which is the extended
  real 0. The narrower format of the weight matrix holds the same extended reals.
-/
import proofs.«415666_j57097295233452_1_alg».proof.Proof.Forms
import proofs.«415666_j57097295233452_1_alg».proof.Proof.Gen.KernelIdeal
import proofs.«415666_j57097295233452_1_alg».proof.Proof.LibLayoutReads
import Idealize.ShloMosaic.Lib.KernelVsHost
import Idealize.ShloMosaic.Lib.Pipeline.Value

noncomputable section

namespace Cert.FeatPads

open Idealize.ShloMosaic Idealize.ShloMosaic.ValueIdx Cert.Forms
open Cert.KernelIdeal

theorem padRows_lo (fi : IVec S2x2000000 32) (p : Fin 2002944) (h : p.val < 2000000) :
    padRows fi (ix1 p) = fi (ix2 (0 : Fin 2) (⟨p.val, h⟩ : Fin 2000000)) := by
  unfold padRows
  -- below the operand's length the extended list reads the operand at the same position
  refine (pad_apply_of_inside ![0] ![2944] ![0] _ _ _ _ (ix1 p) (ix1 (⟨p.val, h⟩ : Fin 2000000)) (fun a => ?_)).trans ?_
  · match a with
    | ⟨0, _⟩ => show p.val = 0 + p.val * (0 + 1); omega
  -- the one-row matrix laid out as a vector: position k is entry (0, k)
  · refine (Cert.Gcn.LayoutReads.shapeCast_ab_n_apply _ _ (⟨p.val, h⟩ : Fin 2000000) (0 : Fin 1) (⟨p.val, h⟩ : Fin 2000000)
      (by show p.val = 0 * 2000000 + p.val; omega)).trans ?_
    -- row 0 of the slice is row 0 of the pair
    exact slice2_axis0_apply 0 fi _ (0 : Fin 1) (⟨p.val, h⟩ : Fin 2000000) (0 : Fin 2) rfl

theorem padCols_lo (fi : IVec S2x2000000 32) (p : Fin 2002944) (h : p.val < 2000000) :
    padCols fi (ix1 p) = fi (ix2 (1 : Fin 2) (⟨p.val, h⟩ : Fin 2000000)) := by
  unfold padCols
  -- below the operand's length the extended list reads the operand at the same position
  refine (pad_apply_of_inside ![0] ![2944] ![0] _ _ _ _ (ix1 p) (ix1 (⟨p.val, h⟩ : Fin 2000000)) (fun a => ?_)).trans ?_
  · match a with
    | ⟨0, _⟩ => show p.val = 0 + p.val * (0 + 1); omega
  -- the one-row matrix laid out as a vector: position k is entry (0, k)
  · refine (Cert.Gcn.LayoutReads.shapeCast_ab_n_apply _ _ (⟨p.val, h⟩ : Fin 2000000) (0 : Fin 1) (⟨p.val, h⟩ : Fin 2000000)
      (by show p.val = 0 * 2000000 + p.val; omega)).trans ?_
    -- row 0 of the slice taken from row 1 on is row 1 of the pair
    exact slice2_axis0_apply 1 fi _ (0 : Fin 1) (⟨p.val, h⟩ : Fin 2000000) (1 : Fin 2) rfl

theorem padVals_lo (fv : FVec Ideal S2000000 .f32) (p : Fin 2002944) (h : p.val < 2000000) :
    padVals fv (ix1 p) = fv (ix1 (⟨p.val, h⟩ : Fin 2000000)) := by
  unfold padVals
  -- below the operand's length the extended list reads the operand at the same position
  refine pad_apply_of_inside ![0] ![2944] ![0] _ _ _ _ (ix1 p) (ix1 (⟨p.val, h⟩ : Fin 2000000)) (fun a => ?_)
  match a with
  | ⟨0, _⟩ => show p.val = 0 + p.val * (0 + 1); omega

theorem padVals_hi (fv : FVec Ideal S2000000 .f32) (p : Fin 2002944) (h : 2000000 ≤ p.val) :
    padVals fv (ix1 p) = 0 := by
  unfold padVals
  -- from the operand's length on the extended list reads the fill value
  refine (pad_apply_of_not_inside (s := S2000000) (t := S2002944) ![0] ![2944] ![0] _ _ _ _ (ix1 p) (0 : Fin 1) (fun hin => ?_)).trans ?_
  · have h3 : (p.val - 0) / (0 + 1) < 2000000 := hin.2.2
    rw [Nat.sub_zero, Nat.zero_add, Nat.div_one] at h3
    omega
  -- the fill value is the integer zero read as a number
  · show ((((0#32 : BitVec 32).toInt : ℤ) : ℝ) : EReal) = 0
    simp

theorem wNarrow_apply (w : FVec Ideal S512x128 .f32) (i : S512x128.Idx) : wNarrow w i = w i := by
  -- on extended reals the change of format is the identity
  unfold wNarrow
  rfl

end Cert.FeatPads

end
-- ==== Proof.FeatSum.lean ====
/-
  The two feature sums are one array.

  Both are accumulating scatters into the zero array: element (r, c) is the sum, over the entries whose row word
  reads r, of column c of that entry's row. The reference's row for entry p is  value p · weight[k, c]  with k the row
  its column word names (`FeatRef.featSumRef_apply`, under the range hypothesis). The kernel's list has 2,944 more
  entries; its row for entry p is  (∑ k, [column word p = k] · weight[k, c]) · value p, and the indicator sum is the
  weight entry of the row the word names, or zero when it names none (`ker_at`). For p below 2,000,000 the extended
  words and values are the originals, so the two terms differ only in the order of the two factors; from 2,000,000 on
  the value is zero, the term is (anything) · 0 = 0, and a sum is not changed by a tail of zeros. No term needs to be
  finite: x · 0 = 0 and the commutativity of the product hold for every extended real.
-/
import proofs.«415666_j57097295233452_1_alg».proof.Proof.Forms
import proofs.«415666_j57097295233452_1_alg».proof.Proof.Gen.KernelIdeal
import proofs.«415666_j57097295233452_1_alg».proof.Proof.Gen.ReferenceIdeal
import proofs.«415666_j57097295233452_1_alg».proof.Proof.LibScatterHost
import proofs.«415666_j57097295233452_1_alg».proof.Proof.LibTileSums
import proofs.«415666_j57097295233452_1_alg».proof.Proof.LibLayoutReads
import proofs.«415666_j57097295233452_1_alg».proof.Proof.LibPadSum
import proofs.«415666_j57097295233452_1_alg».proof.Proof.FeatRef
import proofs.«415666_j57097295233452_1_alg».proof.Proof.FeatPads

noncomputable section

namespace Cert.FeatSum

open Idealize.ShloMosaic Idealize.ShloMosaic.ValueIdx Cert.Forms Cert.FeatRef Cert.FeatPads

section KernelHalf
open Cert.KernelIdeal

/-! The kernel's scatter sends update row p to the array row its index word names, column for column. -/
theorem kd_uw : (scatter_S100000x128_S2002944x1_S2002944x128_1_0_0_1).updateWindowDims = [1] := rfl
theorem kd_iw : (scatter_S100000x128_S2002944x1_S2002944x128_1_0_0_1).insertedWindowDims = [0] := rfl
theorem kd_sd : (scatter_S100000x128_S2002944x1_S2002944x128_1_0_0_1).scatterDimsToOperandDims = [0] := rfl
theorem kd_iv : (scatter_S100000x128_S2002944x1_S2002944x128_1_0_0_1).indexVectorDim = 1 := rfl

/-- The kernel's feature sum at (r, c): the zero array's element plus, over the 2,002,944 extended entries whose
    row word reads r, the weight entry (k, c) of the row k the column word names (zero when it names none: the
    indicator row then has no 1) times the value. -/
theorem ker_at (fi : IVec S2x2000000 32) (fv : FVec Ideal S2000000 .f32) (w : FVec Ideal S512x128 .f32)
    (r : Fin 100000) (c : Fin 128) :
    featSumKer fi fv w (ix2 r c)
      = (broadcastInDim S100000x128 ![] Facts₀.bcast_S_S100000x128 (constant (F := Ideal) S_ .f32 0x00000000#32) :
            FVec Ideal S100000x128 .f32) (ix2 r c)
        + ∑ p : Fin 2002944, if (padRows fi (ix1 p)).toInt = ((r.val : ℕ) : Int)
            then rowAt (wNarrow w) (padCols fi (ix1 p)) c * padVals fv (ix1 p) else 0 := by
  unfold featSumKer
  rw [Cert.LibScatterHost.scatterAdd2_apply _ kd_uw kd_iw kd_sd kd_iv]
  refine congrArg (_ + ·) (Finset.sum_congr rfl (fun p _ => ?_))
  -- one product row at column c: the indicator-weighted sum over the 512 positions keeps one weight entry
  have hm : msgs (padCols fi) (padVals fv) (wNarrow w) (ix2 p c)
      = rowAt (wNarrow w) (padCols fi (ix1 p)) c * padVals fv (ix1 p) := by
    show (∑ k : Fin 512, (if padCols fi (ix1 p) = BitVec.ofNat 32 k.val then (1 : EReal) else 0) * wNarrow w (ix2 k c))
        * padVals fv (ix1 p) = _
    rw [Cert.LibTileSums.onehot_sum (by norm_num) (padCols fi (ix1 p)) (fun k => wNarrow w (ix2 k c))]
    rfl
  rw [Cert.Gcn.LayoutReads.broadcastInDim_a_a1_apply, hm]

end KernelHalf

open Cert.ReferenceIdeal in
/-- Under the range hypothesis on the column words the kernel's feature sum is the reference's. -/
theorem featSum_eq (fi : IVec S2x2000000 32) (fv : FVec Ideal S2000000 .f32) (w : FVec Ideal S512x128 .f32)
    (hcols : ∀ p : Fin 2000000, 0 ≤ (fi (ix2 (1 : Fin 2) p)).toInt ∧ (fi (ix2 (1 : Fin 2) p)).toInt < 512) :
    featSumKer fi fv w = featSumRef fi fv w := by
  funext i
  obtain ⟨r, c, rfl⟩ : ∃ (r : Fin 100000) (c : Fin 128), i = ix2 r c := ⟨i 0, i 1, eq_ix2 i⟩
  have hle : 2000000 ≤ 2002944 := by norm_num
  -- the added entries carry the value zero
  have hz : ∀ p : Fin 2002944, 2000000 ≤ p.val →
      (if (padRows fi (ix1 p)).toInt = ((r.val : ℕ) : Int)
        then rowAt (wNarrow w) (padCols fi (ix1 p)) c * padVals fv (ix1 p) else 0) = 0 := by
    intro p hp
    rw [padVals_hi fv p hp, mul_zero, ite_self]
  rw [ker_at, Cert.FeatRef.featSumRef_apply fi fv w hcols r c, Cert.LibPadSum.sum_of_tail_zero hle _ hz]
  refine congrArg₂ (· + ·) rfl (Finset.sum_congr rfl (fun p _ => ?_))
  -- below 2,000,000 the extended lists are the originals, and the narrowed weights are the weights
  have hp : (Fin.castLE hle p).val < 2000000 := p.isLt
  have e : (⟨(Fin.castLE hle p).val, hp⟩ : Fin 2000000) = p := Fin.ext rfl
  have hrow : rowAt (wNarrow w) (fi (ix2 (1 : Fin 2) p)) c = rowAt w (fi (ix2 (1 : Fin 2) p)) c := by
    unfold rowAt
    split
    · exact wNarrow_apply w _
    · rfl
  rw [padRows_lo fi _ hp, padCols_lo fi _ hp, padVals_lo fv _ hp, e, mul_comm, hrow]

end Cert.FeatSum

end
-- ==== Proof.PreCols.lean ====
/-
  The column range, read out of the precondition.

  The precondition is a conjunction of scalar bits; its last conjunct is the conjunction, over the 2,000,000
  entries, of "0 ≤ column word" and "column word < 512", both compares signed. The whole being 1, every conjunct is
  1, so at every entry p the column word, read as a signed integer, lies in [0, 512).
-/
import proofs.«415666_j57097295233452_1_alg».proof.Proof.Forms
import proofs.«415666_j57097295233452_1_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.IdealHost

noncomputable section

namespace Cert.PreCols

open Idealize.ShloMosaic Idealize.ShloMosaic.ValueIdx

/-- The scalar shape has one index. -/
local instance scalarIdx_subsingleton : Subsingleton Cert.Pre_finite_inputs.S_.Idx := ⟨fun a b => funext fun d => d.elim0⟩

open Cert.Pre_finite_inputs in
/-- Row 1 of the index pair, flattened, read at position p: the pair's entry (1, p). -/
theorem cols_apply (fi : IVec S2x2000000 32) (h1 : S2x2000000.Slices ![1, 0] S1x2000000)
    (h2 : S1x2000000.ShapeCasts S2000000) (p : Fin 2000000) :
    shapeCast S2000000 (extractStridedSlice S1x2000000 ![1, 0] fi h1) h2 (ix1 p) = fi (ix2 (1 : Fin 2) p) := by
  rw [shapeCast_apply _ h2 (ix1 p) (ix2 (0 : Fin 1) p) (by
      rw [Shape.rowMajor_val_one, Shape.rowMajor_val_two]; show 0 * _ + p.val = p.val; omega),
    extractStridedSlice_apply ![1, 0] fi h1 (ix2 (0 : Fin 1) p) (ix2 (1 : Fin 2) p) (fun a => by
      match a with
      | ⟨0, _⟩ => rfl
      | ⟨1, _⟩ => show p.val = 0 + p.val; omega)]

open Cert.Pre_finite_inputs in
theorem cols_of_pre (fi : IVec S2x2000000 32) (fv : FVec Ideal S2000000 .f32) (ai : IVec S2x1600000 32)
    (av : FVec Ideal S1600000 .f32) (w : FVec Ideal S512x128 .f32) (b : FVec Ideal S1x128 .f32)
    (h : Cert.Pre_finite_inputs.fn (F := Ideal) fi fv ai av w b = fun _ => 1#1) :
    ∀ p : Fin 2000000, 0 ≤ (fi (ix2 (1 : Fin 2) p)).toInt ∧ (fi (ix2 (1 : Fin 2) p)).toInt < 512 := by
  intro p
  have h0 := congrFun h ValueIdx.ix0
  dsimp only [Cert.Pre_finite_inputs.fn, Cert.Pre_finite_inputs.fn_part1] at h0
  -- the last conjunct: every column word passes both compares
  obtain ⟨-, hall⟩ := IntOp.andi_eq_one.1 h0
  have hp := Host.reduce_andi_all _ _ _ _ _ hall (ix1 p)
  obtain ⟨hge, hlt⟩ := IntOp.andi_eq_one.1 hp
  have hge' := IntOp.cmpi_sge.1 hge
  have hlt' := IntOp.cmpi_slt.1 hlt
  rw [cols_apply, broadcastInDim_scalar_apply] at hge' hlt'
  -- the two literal words read signed: 0 and 512
  have z0 : (constantI S_ 32 0#32 ix0).toInt = 0 := by decide
  have z512 : (constantI S_ 32 512#32 ix0).toInt = 512 := by decide
  rw [z0] at hge'
  rw [z512] at hlt'
  exact ⟨hge', hlt'⟩

end Cert.PreCols

end
-- ==== Proof.lean ====
/-
  A sparse graph-convolution layer as a tiled kernel program, against its array-level reference, over the
  extended reals.

  Both programs take a sparse feature matrix in coordinate form (2,000,000 entries: a row word, a column word and a
  value each), a 512 × 128 weight matrix, a bias row, and a sparse adjacency matrix in the same form (1,600,000
  edges), and return a 100,000 × 128 array:

      base  = for every node r:  ∑ over the entries p whose row word is r of  value p · weight[column p, ·]
      base' = max (base + bias, 0)
      twice:  base' ← for every node r:  ∑ over the edges e whose row word is r of  value e · base'[column e, ·].

  The reference reads the weight row by a gather. The kernel program extends the entry lists by 2,944 entries with
  row 0, column 0 and value 0 (so that they split into 489 blocks of 4,096), and its first kernel forms each row as
  (the indicator row of the column word, over the 512 positions) × (the weight matrix) × value; its second kernel adds
  the bias and takes the positive part, 2,000 rows at a time; the sums into the nodes and the adjacency steps are
  the same host operations in both programs.

  The two agree exactly when every column word names one of the 512 weight rows, which the precondition states
  (outside that range the reference's gather reads a wrapped or clamped row while the indicator row is all zero).
  Under it the indicator product IS the gathered row (one term of the sum has factor 1, the others factor 0), the
  added entries contribute value 0 · (weight row 0) = 0 to node 0, and a sum is unchanged by zero terms: the two
  feature sums are one array (`FeatSum.featSum_eq`), and everything after it is the same function of it
  (`Forms.biasRelu`, `Forms.adjStep`). None of this needs an input to be finite: 0 · x = 0 and x · 0 = 0 hold for
  every extended real, and sums of extended reals may be regrouped freely.

  The frames of the two kernel programs are the generated ones; the reference's is its generated run with the result
  dropped. The kernel program's run with its result named is `GenRun.run_result`; what that result is, read through
  the host stretches and the two kernels' block-by-block values, is `KHost.result_eq`; the reference's is
  `RefSide.result_eq`.
-/
import proofs.«415666_j57097295233452_1_alg».proof.Defs
import proofs.«415666_j57097295233452_1_alg».proof.Proof.Gen.Kernel
import proofs.«415666_j57097295233452_1_alg».proof.Proof.Gen.Kernel.Skeleton
import proofs.«415666_j57097295233452_1_alg».proof.Proof.Gen.Kernel.Launch
import proofs.«415666_j57097295233452_1_alg».proof.Proof.Gen.Kernel.Points
import proofs.«415666_j57097295233452_1_alg».proof.Proof.Gen.Kernel.Frame
import proofs.«415666_j57097295233452_1_alg».proof.Proof.Gen.KernelIdeal
import proofs.«415666_j57097295233452_1_alg».proof.Proof.Gen.KernelIdeal.Skeleton
import proofs.«415666_j57097295233452_1_alg».proof.Proof.Gen.KernelIdeal.Launch
import proofs.«415666_j57097295233452_1_alg».proof.Proof.Gen.KernelIdeal.Points
import proofs.«415666_j57097295233452_1_alg».proof.Proof.Gen.KernelIdeal.Frame
import proofs.«415666_j57097295233452_1_alg».proof.Proof.Gen.ReferenceIdeal
import proofs.«415666_j57097295233452_1_alg».proof.Proof.Gen.ReferenceIdeal.Run
import proofs.«415666_j57097295233452_1_alg».proof.Proof.Gen.ReferenceIdeal.Read
import proofs.«415666_j57097295233452_1_alg».proof.Proof.Gen.Pre_finite_inputs
import proofs.«415666_j57097295233452_1_alg».proof.Proof.Forms
import proofs.«415666_j57097295233452_1_alg».proof.Proof.KRun
import proofs.«415666_j57097295233452_1_alg».proof.Proof.KHost
import proofs.«415666_j57097295233452_1_alg».proof.Proof.RefSide
import proofs.«415666_j57097295233452_1_alg».proof.Proof.FeatSum
import proofs.«415666_j57097295233452_1_alg».proof.Proof.PreCols
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every column word naming a weight row, both programs end with
    the same array: two adjacency steps over the bias-and-positive-part of ONE feature sum. -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v42),
    Cert.KernelIdeal.GenRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W11 (F := Ideal) m ρ c (Proc.devRef .tc Cert.KernelIdeal.main_v42)
  rw [Cert.RefSide.result_eq, Cert.KHost.result_eq, (hagree c).1, (hagree c).2.1, (hagree c).2.2.1, (hagree c).2.2.2.1,
    (hagree c).2.2.2.2.1, (hagree c).2.2.2.2.2,
    Cert.FeatSum.featSum_eq _ _ _ (Cert.PreCols.cols_of_pre _ _ _ _ _ _ (hpre c))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
